-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S256x8192 : Shape := ⟨2, ![256, 8192]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)

variable [Facts₀]

class Facts : Prop extends Facts₀ where

variable [Facts]
-- ==== Proof.FiniteEntries.lean ====
/-
  The precondition, read: every entry of the input array is a real number.

  The precondition is printed as `all (|x| < +∞)`: the absolute value of the array, compared entry by entry with the
  pattern of +∞, and the comparisons folded by `and` over both axes from `true`. If the fold is `true` then every
  comparison is. On the extended reals |v| is `max v (-v)`, which is +∞ at both infinities, so `|v| < +∞` leaves
  exactly the reals.
-/
import proofs.«141453_j73667279061083_1_alg».proof.Proof.Gen.Pre_finite_inputs
import Idealize.ShloMosaic.PureOps.Ideal
import Idealize.ShloMosaic.Lib.ReduceAll

noncomputable section

namespace Cert.FiniteEntries

open Idealize.ShloMosaic Cert.Pre_finite_inputs

/-- The pattern with all exponent bits set and zero fraction, sign clear, denotes +∞. -/
theorem word_top : Ideal.ofBits .f32 0x7F800000#32 = (⊤ : EReal) := by
  simp [Ideal.ofBits, Ideal.ieee]

/-- An extended real whose absolute value is below +∞ is a real: at either infinity `max v (-v)` is +∞. -/
theorem real_of_abs_lt_top (v : EReal) (hlt : max v (-v) < ⊤) : ∃ r : ℝ, v = (r : EReal) := by
  induction v using EReal.rec with
  | bot => simp at hlt
  | coe r => exact ⟨r, rfl⟩
  | top => simp at hlt

/-- The same, from the comparison as the precondition prints it at one entry: the ordered `<` of the host's
    absolute value against the +∞ pattern, as a one-bit word equal to 1. -/
theorem real_of_cmp (v : EReal)
    (hv : FloatOps.cmpf (F := Ideal) (φ := .f32) .olt (FloatOps.hostAbsf v) (Ideal.ofBits .f32 0x7F800000#32) = 1#1) :
    ∃ r : ℝ, v = (r : EReal) := by
  rw [word_top] at hv
  refine real_of_abs_lt_top v ?_
  by_contra hn
  have hz : FloatOps.cmpf (F := Ideal) (φ := .f32) .olt (FloatOps.hostAbsf v) (⊤ : EReal) = 0#1 := by
    show BitVec.ofBool (decide (max v (-v) < ⊤)) = 0#1
    rw [decide_eq_false hn]; rfl
  rw [hz] at hv
  exact absurd hv (by decide)

/-- The result of the precondition has one index only (rank 0). -/
instance : Subsingleton S_.Idx := ⟨fun a b => funext fun d => d.elim0⟩

/-- Under the precondition every entry of the input array is a real number. -/
theorem real_entries (x : FVec Ideal S8192x8192 .f32) (h : Cert.Pre_finite_inputs.fn (F := Ideal) x = fun _ => 1#1)
    (i : S8192x8192.Idx) : ∃ r : ℝ, x i = (r : EReal) := by
  have h0 := congrFun h (fun d => d.elim0)
  dsimp only [Cert.Pre_finite_inputs.fn] at h0
  have h1 := Host.reduce_andi_all _ _ _ _ _ h0 i
  simp only [cmpf, Host.absf, broadcastInDim, constant, Ideal.ofBits_def] at h1
  exact real_of_cmp (x i) h1

end Cert.FiniteEntries

end
-- ==== Proof.Quadratic.lean ====
/-
  The scalar mathematics of this certificate, with no program in sight.

  Both programs apply one function to every entry x of the input array:
    the kernel      ((-1/2 · x) · x + 9/2 · x) + 2,
    the reference   ((x + 2) + x · 3) - (x - 1) · (x · 1/2).
  On a real x these are the same quadratic, -x²/2 + 9x/2 + 2: expand (x - 1) · (x/2) = x²/2 - x/2 and collect.
  The identity uses distributivity and the cancelling of a subtraction, which fail at the infinities of the
  extended reals, so it is stated for a REAL entry only; the precondition (every input entry finite) supplies that.

  The six float literals are exact dyadics, so each bit pattern denotes exactly the rational written in the source.
-/
import Idealize.ShloMosaic.PureOps.Ideal

noncomputable section

namespace Cert.Quadratic

open Idealize.ShloMosaic

/-! ## The literals, as the reals their patterns denote -/

/-- `-0.5`: sign set, exponent 126, zero fraction. -/
theorem word_neg_half : Ideal.ofBits .f32 0xBF000000#32 = ((-(1 / 2) : ℝ) : EReal) := by
  simp [Ideal.ofBits, Ideal.ieee, -EReal.coe_mul]; norm_num

/-- `4.5 = 9/2`: exponent 129, fraction 2^20 (that is 1.125 · 4). -/
theorem word_nine_halves : Ideal.ofBits .f32 0x40900000#32 = ((9 / 2 : ℝ) : EReal) := by
  simp [Ideal.ofBits, Ideal.ieee, -EReal.coe_mul]; norm_num

/-- `2.0`: exponent 128, zero fraction. -/
theorem word_two : Ideal.ofBits .f32 0x40000000#32 = ((2 : ℝ) : EReal) := by
  simp [Ideal.ofBits, Ideal.ieee, -EReal.coe_mul]; norm_num

/-- `3.0`: exponent 128, fraction 2^22 (that is 1.5 · 2). -/
theorem word_three : Ideal.ofBits .f32 0x40400000#32 = ((3 : ℝ) : EReal) := by
  simp [Ideal.ofBits, Ideal.ieee, -EReal.coe_mul]; norm_num

/-- `1.0`: exponent 127, zero fraction. -/
theorem word_one : Ideal.ofBits .f32 0x3F800000#32 = ((1 : ℝ) : EReal) := by
  simp [Ideal.ofBits, Ideal.ieee, -EReal.coe_mul]; norm_num

/-- `0.5`: exponent 126, zero fraction. -/
theorem word_half : Ideal.ofBits .f32 0x3F000000#32 = ((1 / 2 : ℝ) : EReal) := by
  simp [Ideal.ofBits, Ideal.ieee, -EReal.coe_mul]; norm_num

/-! ## The identity -/

/-- On the reals: `(x + 2) + 3x - (x - 1)(x/2) = (-x/2)·x + (9/2)x + 2`. -/
theorem real_identity (r : ℝ) :
    (r + 2 + r * 3) - (r - 1) * (r * (1 / 2)) = (-(1 / 2) * r) * r + 9 / 2 * r + 2 := by
  ring

/-- The same identity between the two programs' entry functions, at a real entry of the extended reals, the
    constants still spelt as their bit patterns. Every intermediate value is real, so the extended reals' sum,
    difference and product are the reals' there. -/
theorem entry_eq (r : ℝ) :
    ((r : EReal) + Ideal.ofBits .f32 0x40000000#32 + (r : EReal) * Ideal.ofBits .f32 0x40400000#32)
        - ((r : EReal) - Ideal.ofBits .f32 0x3F800000#32) * ((r : EReal) * Ideal.ofBits .f32 0x3F000000#32)
      = (Ideal.ofBits .f32 0xBF000000#32 * (r : EReal)) * (r : EReal)
          + Ideal.ofBits .f32 0x40900000#32 * (r : EReal) + Ideal.ofBits .f32 0x40000000#32 := by
  rw [word_two, word_three, word_one, word_half, word_neg_half, word_nine_halves]
  exact_mod_cast congrArg (fun t : ℝ => (t : EReal)) (real_identity r)

end Cert.Quadratic

end
-- ==== Proof.Bridge.lean ====
/-
  The two programs' result arrays are one function of the input array.

  The reference's result is the whole-array term
    ((x + 2) + x · 3) - (x - 1) · (x · 1/2),
  each constant a scalar broadcast over the 8192 × 8192 array and every operation applied entry by entry; the
  kernel's result is the array whose entry at i is ((-1/2 · x i) · x i + 9/2 · x i) + 2. Read at an index i both
  are scalar expressions in the one entry x i, and where that entry is a real number they are the same quadratic.
-/
import proofs.«141453_j73667279061083_1_alg».proof.Proof.Gen.KernelIdeal.Value
import proofs.«141453_j73667279061083_1_alg».proof.Proof.Gen.ReferenceIdeal.Run
import proofs.«141453_j73667279061083_1_alg».proof.Proof.Quadratic

noncomputable section

namespace Cert.Bridge

open Idealize.ShloMosaic

/-- For an input array all of whose entries are real, the reference's composed term is the kernel's array
    function: at each index the broadcasts read their scalar, the elementwise operations act on the entry, and
    the two scalar expressions agree by the quadratic identity. -/
theorem result_eq (x : FVec Ideal Cert.ReferenceIdeal.S8192x8192 .f32)
    (hb : Cert.ReferenceIdeal.S_.BroadcastsInDim Cert.ReferenceIdeal.S8192x8192
      (![] : Fin 0 → Fin Cert.ReferenceIdeal.S8192x8192.rank))
    (hx : ∀ i, ∃ r : ℝ, x i = (r : EReal)) :
    subf
        (addf
          (addf x (broadcastInDim Cert.ReferenceIdeal.S8192x8192 ![] hb
            (constant (F := Ideal) Cert.ReferenceIdeal.S_ .f32 0x40000000#32)))
          (mulf x (broadcastInDim Cert.ReferenceIdeal.S8192x8192 ![] hb
            (constant (F := Ideal) Cert.ReferenceIdeal.S_ .f32 0x40400000#32))))
        (mulf
          (subf x (broadcastInDim Cert.ReferenceIdeal.S8192x8192 ![] hb
            (constant (F := Ideal) Cert.ReferenceIdeal.S_ .f32 0x3F800000#32)))
          (mulf x (broadcastInDim Cert.ReferenceIdeal.S8192x8192 ![] hb
            (constant (F := Ideal) Cert.ReferenceIdeal.S_ .f32 0x3F000000#32))))
      = Cert.KernelIdeal.Value.G1 (F := Ideal) x := by
  funext i
  obtain ⟨r, hr⟩ := hx i
  simp only [Cert.KernelIdeal.Value.G1, subf, addf, mulf, broadcastInDim, constant, Ideal.ofBits_def,
    Ideal.addf_def, Ideal.subf_def, Ideal.mulf_def, hr]
  exact Cert.Quadratic.entry_eq r

end Cert.Bridge

end
-- ==== Proof.lean ====
/-
  An elementwise quadratic over f32[8192, 8192], streamed in 32 row blocks of 256 rows.

  The kernel computes, at every entry x, ((-1/2 · x) · x + 9/2 · x) + 2; the reference computes
  ((x + 2) + x · 3) - (x - 1) · (x · 1/2) with whole-array host operations. Every literal is an exact dyadic.
  On a real x both are -x²/2 + 9x/2 + 2 (Proof/Quadratic.lean). The identity needs distributivity and the
  cancelling of a subtraction, which fail at the infinities of the extended reals, so the value claim USES the
  precondition: every input entry is finite, hence real (Proof/FiniteEntries.lean). Proof/Bridge.lean reads the
  reference's whole-array term at an index and joins it with the kernel's array function there.

  The kernel's result array as one function of the input (the 32 blocks tile the array, each block the body's
  pointwise result of the input block at the same position) and the reference's run are the generated value leg
  and the generated run; each frame claim is the corresponding run with the result forgotten, and the word-level
  kernel's frame is its generated frame. The idealization rewrote nothing, so `preserves` is `True`.
-/
import proofs.«141453_j73667279061083_1_alg».proof.Defs
import proofs.«141453_j73667279061083_1_alg».proof.Proof.Gen.Kernel.Frame
import proofs.«141453_j73667279061083_1_alg».proof.Proof.Gen.KernelIdeal.Value
import proofs.«141453_j73667279061083_1_alg».proof.Proof.Gen.Pre_finite_inputs
import proofs.«141453_j73667279061083_1_alg».proof.Proof.Gen.ReferenceIdeal.Run
import proofs.«141453_j73667279061083_1_alg».proof.Proof.FiniteEntries
import proofs.«141453_j73667279061083_1_alg».proof.Proof.Bridge
import Idealize.ShloMosaic.Adequacy
import Idealize.ShloMosaic.Init

noncomputable section

namespace Cert.Proof

open Idealize.ShloMosaic Idealize.SL.Sem

/-- The idealized kernel runs and leaves its argument unchanged: its value run, the result array forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its argument unchanged: its run, the result array forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the input array, whose entries the precondition makes real, the kernel's result
    array is `G1` of the input and the reference's is its composed term of the same input; the two are equal
    entry by entry by the quadratic identity. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, hagree c]
  exact Cert.Bridge.result_eq _ _ (fun i => Cert.FiniteEntries.real_entries _ (hpre c) i)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
